-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x32 .f32) (main_arg7 : FVec F S32 .f32) (main_arg8 : FVec F S32x1 .f32) (main_arg9 : FVec F S1 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x32 .f32) (main_arg5 : FVec F S32 .f32) (main_arg6 : FVec F S32x32 .f32) (main_arg7 : FVec F S32 .f32) (main_arg8 : FVec F S32x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S5000x128 : Shape := ⟨2, ![5000, 128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S1x32 : Shape := ⟨2, ![1, 32]⟩
abbrev S1x1 : Shape := ⟨2, ![1, 1]⟩
abbrev S50000x1 : Shape := ⟨2, ![50000, 1]⟩
abbrev S5000x1 : Shape := ⟨2, ![5000, 1]⟩
abbrev S5000x32 : Shape := ⟨2, ![5000, 32]⟩
abbrev S5000 : Shape := ⟨1, ![5000]⟩

abbrev nBuf : Space → Nat
  | .hbm => 73
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S50000x128, .f32⟩
  | .hbm, ⟨11, _⟩ => ⟨S50000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S1x600000, .i32⟩
  | .hbm, ⟨16, _⟩ => ⟨S600000, .i32⟩
  | .hbm, ⟨17, _⟩ => ⟨S650000, .i32⟩
  | .hbm, ⟨18, _⟩ => ⟨S_, .f32⟩
  | .hbm, ⟨19, _⟩ => ⟨S650000, .f32⟩
  | .hbm, ⟨20, _⟩ => ⟨S_, .f32⟩
  | .hbm, ⟨21, _⟩ => ⟨S50000, .f32⟩
  | .hbm, ⟨22, _⟩ => ⟨S650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S_, .i32⟩
  | .hbm, ⟨42, _⟩ => ⟨S650000, .i32⟩
  | .hbm, ⟨43, _⟩ => ⟨S650000, .i1⟩
  | .hbm, ⟨44, _⟩ => ⟨S_, .i32⟩
  | .hbm, ⟨45, _⟩ => ⟨S650000, .i32⟩
  | .hbm, ⟨46, _⟩ => ⟨S650000, .i32⟩
  | .hbm, ⟨47, _⟩ => ⟨S650000, .i32⟩
  | .hbm, ⟨48, _⟩ => ⟨S650000x1, .i32⟩
  | .hbm, ⟨49, _⟩ => ⟨S650000, .f32⟩
  | .hbm, ⟨50, _⟩ => ⟨S650000, .f32⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S650000x1, .i32⟩
  | .hbm, ⟨59, _⟩ => ⟨S650000x128, .f32⟩
  | .hbm, ⟨60, _⟩ => ⟨S650000x1, .f32⟩
  | .hbm, ⟨61, _⟩ => ⟨S650000x128, .f32⟩
  | .hbm, ⟨62, _⟩ => ⟨S650000x128, .f32⟩
  | .hbm, ⟨63, _⟩ => ⟨S_, .f32⟩
  | .hbm, ⟨64, _⟩ => ⟨S50000x128, .f32⟩
  | .hbm, ⟨65, _⟩ => ⟨S650000x1, .i32⟩
  | .hbm, ⟨66, _⟩ => ⟨S50000x128, .f32⟩
  | .hbm, ⟨67, _⟩ => ⟨S1x128, .f32⟩
  | .hbm, ⟨68, _⟩ => ⟨S1x32, .f32⟩
  | .hbm, ⟨69, _⟩ => ⟨S1x32, .f32⟩
  | .hbm, ⟨70, _⟩ => ⟨S1x1, .f32⟩
  | .hbm, ⟨71, _⟩ => ⟨S1x32, .f32⟩
  | .hbm, ⟨72, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S128x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S1x32, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S32_S1x32 : S32.ShapeCasts S1x32
  shapeCasts_S1_S1x1 : S1.ShapeCasts S1x1
  shapeCasts_S32x1_S1x32 : S32x1.ShapeCasts S1x32
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  reduces_S5000x32_S5000 : S5000x32.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x128_S128x128_S5000x128_1_0_0_1_n_n_wf : DotDims.WF S5000x128 S128x128 S5000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x32_S5000x32_1_0_0_1_n_n_wf : DotDims.WF S5000x128 S128x32 S5000x32 [1] [0] [0] [1] [] []
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S50000x1.size a
  hwx1_9 : ∀ i : grid1.Coords, EltTy.bits .f32 = 32 ∨ (Rect.block (s := S50000x1) S5000x1.size (cc1_transform_9 i) (hinb1_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v49) S5000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x32 : Shape := ⟨2, ![50000, 32]⟩
abbrev S1x32 : Shape := ⟨2, ![1, 32]⟩
abbrev S50000x1 : Shape := ⟨2, ![50000, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S50000x128, .f32⟩
  | .hbm, ⟨11, _⟩ => ⟨S50000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S1x600000, .i32⟩
  | .hbm, ⟨16, _⟩ => ⟨S600000, .i32⟩
  | .hbm, ⟨17, _⟩ => ⟨S650000, .i32⟩
  | .hbm, ⟨18, _⟩ => ⟨S_, .f32⟩
  | .hbm, ⟨19, _⟩ => ⟨S650000, .f32⟩
  | .hbm, ⟨20, _⟩ => ⟨S_, .f32⟩
  | .hbm, ⟨21, _⟩ => ⟨S50000, .f32⟩
  | .hbm, ⟨22, _⟩ => ⟨S650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S_, .i32⟩
  | .hbm, ⟨42, _⟩ => ⟨S650000, .i32⟩
  | .hbm, ⟨43, _⟩ => ⟨S650000, .i1⟩
  | .hbm, ⟨44, _⟩ => ⟨S_, .i32⟩
  | .hbm, ⟨45, _⟩ => ⟨S650000, .i32⟩
  | .hbm, ⟨46, _⟩ => ⟨S650000, .i32⟩
  | .hbm, ⟨47, _⟩ => ⟨S650000, .i32⟩
  | .hbm, ⟨48, _⟩ => ⟨S650000x1, .i32⟩
  | .hbm, ⟨49, _⟩ => ⟨S650000, .f32⟩
  | .hbm, ⟨50, _⟩ => ⟨S650000, .f32⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S650000x1, .i32⟩
  | .hbm, ⟨59, _⟩ => ⟨S650000x128, .f32⟩
  | .hbm, ⟨60, _⟩ => ⟨S650000x1, .f32⟩
  | .hbm, ⟨61, _⟩ => ⟨S650000x128, .f32⟩
  | .hbm, ⟨62, _⟩ => ⟨S650000x128, .f32⟩
  | .hbm, ⟨63, _⟩ => ⟨S_, .f32⟩
  | .hbm, ⟨64, _⟩ => ⟨S50000x128, .f32⟩
  | .hbm, ⟨65, _⟩ => ⟨S650000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x32, .f32⟩
  | .hbm, ⟨75, _⟩ => ⟨S1x32, .f32⟩
  | .hbm, ⟨76, _⟩ => ⟨S50000x32, .f32⟩
  | .hbm, ⟨77, _⟩ => ⟨S50000x32, .f32⟩
  | .hbm, ⟨78, _⟩ => ⟨S_, .f32⟩
  | .hbm, ⟨79, _⟩ => ⟨S50000x32, .f32⟩
  | .hbm, ⟨80, _⟩ => ⟨S50000x32, .f32⟩
  | .hbm, ⟨81, _⟩ => ⟨S50000x32, .f32⟩
  | .hbm, ⟨82, _⟩ => ⟨S1x32, .f32⟩
  | .hbm, ⟨83, _⟩ => ⟨S50000x32, .f32⟩
  | .hbm, ⟨84, _⟩ => ⟨S50000x32, .f32⟩
  | .hbm, ⟨85, _⟩ => ⟨S_, .f32⟩
  | .hbm, ⟨86, _⟩ => ⟨S50000x32, .f32⟩
  | .hbm, ⟨87, _⟩ => ⟨S50000x32, .f32⟩
  | .hbm, ⟨88, _⟩ => ⟨S50000x1, .f32⟩
  | .hbm, ⟨89, _⟩ => ⟨S1x1, .f32⟩
  | .hbm, ⟨90, _⟩ => ⟨S50000x1, .f32⟩
  | .hbm, ⟨91, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call3_cst : Ref sig .tc := ⟨.hbm, 85, rfl⟩
abbrev main_call3_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x32_S50000x32_1_0_0_1_n_n_wf : DotDims.WF S50000x128 S128x32 S50000x32 [1] [0] [0] [1] [] []
  dot_S50000x32_S32x32_S50000x32_1_0_0_1_n_n_wf : DotDims.WF S50000x32 S32x32 S50000x32 [1] [0] [0] [1] [] []
  dot_S50000x32_S32x1_S50000x1_1_0_0_1_n_n_wf : DotDims.WF S50000x32 S32x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.RowMath.lean ====
/-
  The network's arithmetic on ONE node, over the extended reals.

  After the graph aggregation every output entry depends on a single row: the node's aggregated feature row `a`
  and its own input row `xr` (both of length 128), and the shared parameters. With relu(t) = max t 0:

    h0 j = relu (a j + bg j) + xr j                       (bias, relu, residual)
    h1 j = relu (∑ i, h0 i * w1 i j + b1 j)               (first dense layer, 128 → 32)
    h2 j = relu (∑ i, h1 i * w2 i j + b2 j)               (second dense layer, 32 → 32)
    out  = ∑ k, h2 k * w3 k + b3                          (projection to one value)

  Sums over a finite index type in the extended reals are sums in a commutative monoid, so no order or grouping of the
  terms matters; no law here needs finiteness.
-/
import Idealize.ShloMosaic.PureOps.Ideal

noncomputable section

namespace Cert.RowMath

/-- One dense layer followed by relu: entry `j` is `max (∑ i, h i * w i j + b j) 0`. -/
def dense {n k : Nat} (h : Fin n → EReal) (w : Fin n → Fin k → EReal) (b : Fin k → EReal) : Fin k → EReal :=
  fun j => max ((∑ i : Fin n, h i * w i j) + b j) 0

/-- The hidden row after bias, relu and the residual connection. -/
def hidden0 (a xr bg : Fin 128 → EReal) : Fin 128 → EReal :=
  fun j => max (a j + bg j) 0 + xr j

/-- The node's output value from its aggregated row `a`, its input row `xr` and the parameters. -/
def rowOut (a xr bg : Fin 128 → EReal) (w1 : Fin 128 → Fin 32 → EReal) (b1 : Fin 32 → EReal)
    (w2 : Fin 32 → Fin 32 → EReal) (b2 : Fin 32 → EReal) (w3 : Fin 32 → EReal) (b3 : EReal) : EReal :=
  (∑ k : Fin 32, dense (dense (hidden0 a xr bg) w1 b1) w2 b2 k * w3 k) + b3

/-- One entry of the feature transform: row `x` against column `j` of the weights. -/
def dotRow (x : Fin 128 → EReal) (w : Fin 128 → EReal) : EReal := ∑ k : Fin 128, x k * w k

end Cert.RowMath

end
-- ==== Proof.LibMatmulRows.lean ====
/-
  A plain matrix product read at an entry, at the ideal values, for ANY extents.

  For the dimension numbers of an ordinary product — the left operand's axis 1 contracted with the right operand's
  axis 0, no batch axes — the product of an [M, K] by a [K, N] operand into a zero accumulator has, at row `p` and
  column `q`, the sum over `k : Fin K` of the left operand at (p, k) times the right operand at (k, q). The same
  holds for the host's `dot_general` (it has no accumulator). Both are stated for a record with those six lists
  written out and any well-formedness proof, so they apply to every printed record of that form by unfolding its name.
-/
import Idealize.ShloMosaic.Lib.ValueIdx
import Idealize.ShloMosaic.PureOps.Ideal.Laws

noncomputable section

namespace Idealize.ShloMosaic.MatmulRows

open Idealize.ShloMosaic Idealize.ShloMosaic.ValueIdx

variable {M K N : Nat}

/-- The record of an ordinary product of an [M, K] by a [K, N] operand. -/
abbrev plainDims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

variable (wf : DotDims.WF ⟨2, ![M, K]⟩ ⟨2, ![K, N]⟩ ⟨2, ![M, N]⟩ [1] [0] [0] [1] [] [])

theorem lhs_row (i : (⟨2, ![M, N]⟩ : Shape).Idx) (q : (plainDims wf).contr.Idx) :
    ((plainDims wf).lhsIdx i q 0).val = (i 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl

theorem lhs_contr (i : (⟨2, ![M, N]⟩ : Shape).Idx) (q : (plainDims wf).contr.Idx) :
    ((plainDims wf).lhsIdx i q 1).val = (q ⟨0, Nat.one_pos⟩).val :=
  (plainDims wf).lhsIdx_val_of_single rfl i q

theorem rhs_contr (i : (⟨2, ![M, N]⟩ : Shape).Idx) (q : (plainDims wf).contr.Idx) :
    ((plainDims wf).rhsIdx i q 0).val = (q ⟨0, Nat.one_pos⟩).val :=
  (plainDims wf).rhsIdx_val_of_single rfl i q

theorem rhs_col (i : (⟨2, ![M, N]⟩ : Shape).Idx) (q : (plainDims wf).contr.Idx) :
    ((plainDims wf).rhsIdx i q 1).val = (i 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- The contracted sum of an ordinary product, re-indexed over `Fin K`. -/
theorem sum_contr {φ₁ φ₂ : FTy} (l : FVec Ideal ⟨2, ![M, K]⟩ φ₁) (r : FVec Ideal ⟨2, ![K, N]⟩ φ₂) (p : Fin M) (q : Fin N) :
    (∑ k : (plainDims wf).contr.Idx, l ((plainDims wf).lhsIdx (ix2 p q) k) * r ((plainDims wf).rhsIdx (ix2 p q) k))
      = ∑ k : Fin K, l (ix2 p k) * r (ix2 k q) := by
  rw [← Equiv.sum_comp (ValueIdx.contrEquiv1 (plainDims wf) K rfl rfl).symm]
  refine Finset.sum_congr rfl fun k _ => ?_
  have hk := ValueIdx.contrEquiv1_symm_val (plainDims wf) K rfl rfl k
  have el : (plainDims wf).lhsIdx (ix2 p q) ((ValueIdx.contrEquiv1 (plainDims wf) K rfl rfl).symm k) = ix2 p k :=
    funext fun a => Fin.ext (by
      match a with
      | ⟨0, _⟩ => exact lhs_row wf _ _
      | ⟨1, _⟩ => exact (lhs_contr wf _ _).trans hk)
  have er : (plainDims wf).rhsIdx (ix2 p q) ((ValueIdx.contrEquiv1 (plainDims wf) K rfl rfl).symm k) = ix2 k q :=
    funext fun a => Fin.ext (by
      match a with
      | ⟨0, _⟩ => exact (rhs_contr wf _ _).trans hk
      | ⟨1, _⟩ => exact rhs_col wf _ _)
  rw [el, er]

/-- A kernel's product into the zero accumulator, at row `p` and column `q`. -/
theorem matmul_zero_apply {φ₁ φ₂ : FTy} (l : FVec Ideal ⟨2, ![M, K]⟩ φ₁) (r : FVec Ideal ⟨2, ![K, N]⟩ φ₂) (p : Fin M) (q : Fin N) :
    FloatOps.matmul (plainDims wf) none l r (constant ⟨2, ![M, N]⟩ .f32 0x00000000#32) (ix2 p q)
      = ∑ k : Fin K, l (ix2 p k) * r (ix2 k q) := by
  rw [Ideal.matmul_constant_zero_apply]
  exact sum_contr wf l r p q

/-- The host's product, at row `p` and column `q`. -/
theorem dotGeneral_apply {φ₁ φ₂ : FTy} (sched : HostSchedule) (l : FVec Ideal ⟨2, ![M, K]⟩ φ₁) (r : FVec Ideal ⟨2, ![K, N]⟩ φ₂) (p : Fin M) (q : Fin N) :
    FloatOps.dotGeneral (plainDims wf) none sched l r (ix2 p q) = ∑ k : Fin K, l (ix2 p k) * r (ix2 k q) := by
  rw [Ideal.dotGeneral_apply]
  exact sum_contr wf l r p q

end Idealize.ShloMosaic.MatmulRows

end
-- ==== Proof.KernelBlock.lean ====
/-
  The two kernel bodies' arithmetic, read at one row of a block, at the ideal values.

  The feature-transform body stores, for its block of 5000 rows, the product of the block with the whole weight
  matrix: entry (p, q) is the sum over k of row p of the block against column q of the weights (the changes of float
  format around the product are the identity on extended reals, and the accumulator starts at zero).

  The second body stores one value per row of its block: `RowMath.rowOut` of that row of the aggregated features,
  the same row of the input, and the parameters — three products into zero accumulators, three relus, and a lane
  sum of 32 products for the final projection (the projection's weights arrive as one row of 32).
-/
import proofs.«150884_j33243046871254_1_alg».proof.Proof.Gen.KernelIdeal.Skeleton
import proofs.«150884_j33243046871254_1_alg».proof.Proof.RowMath
import proofs.«150884_j33243046871254_1_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.RowMath

/-! ## The feature-transform body -/

/-- What the first body stores at row `p`, column `q` of its block: row `p` of the input block against column `q` of
    the weights. -/
theorem xw_pay (x0 : Vec Ideal S5000x128 .f32) (x1 : Vec Ideal S128x128 .f32) (p : Fin 5000) (q : Fin 128) :
    k0_pay1 (F := Ideal) x0 x1 (ix2 p q) = dotRow (fun k => x0 (ix2 p k)) (fun k => x1 (ix2 k q)) := by
  unfold k0_pay1 dotRow
  exact MatmulRows.matmul_zero_apply dot_S5000x128_S128x128_S5000x128_1_0_0_1_n_n_wf _ _ p q

/-! ## The second body, layer by layer -/

/-- One row of 128 broadcast over the block's rows. -/
theorem row128_at (v : Vec Ideal S1x128 .f32) (p : Fin 5000) (j : Fin 128) :
    broadcastTo S5000x128 (shapeCast S1x128 v shapeCasts_S1x128_S1x128) broadcasts_S1x128_S5000x128 (ix2 p j) = v (ix2 (0 : Fin 1) j) := by
  rw [shapeCast_self]
  exact broadcastTo_1b_ab_apply v _ p j

/-- One row of 32 broadcast over the block's rows. -/
theorem row32_at (v : Vec Ideal S1x32 .f32) (p : Fin 5000) (j : Fin 32) :
    broadcastTo S5000x32 (shapeCast S1x32 v shapeCasts_S1x32_S1x32) broadcasts_S1x32_S5000x32 (ix2 p j) = v (ix2 (0 : Fin 1) j) := by
  rw [shapeCast_self]
  exact broadcastTo_1b_ab_apply v _ p j

/-- The one scalar broadcast over the block's rows. -/
theorem row1_at (v : Vec Ideal S1x1 .f32) (p : Fin 5000) :
    broadcastTo S5000x1 (shapeCast S1x1 v shapeCasts_S1x1_S1x1) broadcasts_S1x1_S5000x1 (ix2 p (0 : Fin 1)) = v (ix2 (0 : Fin 1) (0 : Fin 1)) := by
  rw [shapeCast_self]
  exact broadcastTo_1b_ab_apply v _ p 0

/-- Bias, relu and residual at row `p`, feature `j` of the block. -/
theorem hidden0_at (v0 : Vec Ideal S5000x128 .f32) (v2 : Vec Ideal S1x128 .f32) (v8 : Vec Ideal S5000x128 .f32) (p : Fin 5000) (j : Fin 128) :
    addf (maximumf (addf (shapeCast S5000x128 v0 shapeCasts_S5000x128_S5000x128) (broadcastTo S5000x128 (shapeCast S1x128 v2 shapeCasts_S1x128_S1x128) broadcasts_S1x128_S5000x128))
        (broadcast S5000x128 (Scalar.ofBits (F := Ideal) .f32 0x00000000#32))) v8 (ix2 p j)
      = hidden0 (fun j => v0 (ix2 p j)) (fun j => v8 (ix2 p j)) (fun j => v2 (ix2 (0 : Fin 1) j)) j := by
  rw [shapeCast_self]
  show max (v0 (ix2 p j) + broadcastTo S5000x128 (shapeCast S1x128 v2 shapeCasts_S1x128_S1x128) broadcasts_S1x128_S5000x128 (ix2 p j)) (Ideal.ofBits .f32 0x00000000#32) + v8 (ix2 p j) = _
  rw [row128_at, Ideal.ofBits_zero_f32]
  rfl

/-- The first dense layer and its relu at row `p`, unit `j`, over any hidden block `H`. -/
theorem dense1_at (H : FVec Ideal S5000x128 .f32) (v11 : Vec Ideal S128x32 .f32) (v14 : Vec Ideal S1x32 .f32) (p : Fin 5000) (j : Fin 32) :
    maximumf (addf (matmul dot_S5000x128_S128x32_S5000x32_1_0_0_1_n_n none (truncf .bf16 H bitsLt_bf16_f32) (truncf .bf16 v11 bitsLt_bf16_f32) (constant S5000x32 .f32 0x00000000#32))
        (broadcastTo S5000x32 (shapeCast S1x32 v14 shapeCasts_S1x32_S1x32) broadcasts_S1x32_S5000x32))
        (broadcast S5000x32 (Scalar.ofBits (F := Ideal) .f32 0x00000000#32)) (ix2 p j)
      = dense (fun i => H (ix2 p i)) (fun i j => v11 (ix2 i j)) (fun j => v14 (ix2 (0 : Fin 1) j)) j := by
  show max (matmul dot_S5000x128_S128x32_S5000x32_1_0_0_1_n_n none (truncf .bf16 H bitsLt_bf16_f32) (truncf .bf16 v11 bitsLt_bf16_f32) (constant S5000x32 .f32 0x00000000#32) (ix2 p j)
      + broadcastTo S5000x32 (shapeCast S1x32 v14 shapeCasts_S1x32_S1x32) broadcasts_S1x32_S5000x32 (ix2 p j)) (Ideal.ofBits .f32 0x00000000#32) = _
  rw [row32_at, Ideal.ofBits_zero_f32]
  unfold dense
  refine congrArg (fun s => max (s + v14 (ix2 (0 : Fin 1) j)) 0) ?_
  exact MatmulRows.matmul_zero_apply dot_S5000x128_S128x32_S5000x32_1_0_0_1_n_n_wf _ _ p j

/-- The second dense layer and its relu at row `p`, unit `j`, over any hidden block `H`. -/
theorem dense2_at (H : FVec Ideal S5000x32 .f32) (v21 : Vec Ideal S32x32 .f32) (v24 : Vec Ideal S1x32 .f32) (p : Fin 5000) (j : Fin 32) :
    maximumf (addf (matmul dot_S5000x32_S32x32_S5000x32_1_0_0_1_n_n none (truncf .bf16 H bitsLt_bf16_f32) (truncf .bf16 v21 bitsLt_bf16_f32) (constant S5000x32 .f32 0x00000000#32))
        (broadcastTo S5000x32 (shapeCast S1x32 v24 shapeCasts_S1x32_S1x32) broadcasts_S1x32_S5000x32))
        (broadcast S5000x32 (Scalar.ofBits (F := Ideal) .f32 0x00000000#32)) (ix2 p j)
      = dense (fun i => H (ix2 p i)) (fun i j => v21 (ix2 i j)) (fun j => v24 (ix2 (0 : Fin 1) j)) j := by
  show max (matmul dot_S5000x32_S32x32_S5000x32_1_0_0_1_n_n none (truncf .bf16 H bitsLt_bf16_f32) (truncf .bf16 v21 bitsLt_bf16_f32) (constant S5000x32 .f32 0x00000000#32) (ix2 p j)
      + broadcastTo S5000x32 (shapeCast S1x32 v24 shapeCasts_S1x32_S1x32) broadcasts_S1x32_S5000x32 (ix2 p j)) (Ideal.ofBits .f32 0x00000000#32) = _
  rw [row32_at, Ideal.ofBits_zero_f32]
  unfold dense
  refine congrArg (fun s => max (s + v24 (ix2 (0 : Fin 1) j)) 0) ?_
  exact MatmulRows.matmul_zero_apply dot_S5000x32_S32x32_S5000x32_1_0_0_1_n_n_wf _ _ p j

/-- The projection at row `p`: the lane sum of the 32 products with the projection's row, plus the last bias. -/
theorem project_at (H : FVec Ideal S5000x32 .f32) (v30 : Vec Ideal S1x32 .f32) (v36 : Vec Ideal S1x1 .f32) (p : Fin 5000) :
    addf (shapeCast S5000x1 (multiReduction .add [1] S5000 (mulf H (broadcastTo S5000x32 (shapeCast S1x32 v30 shapeCasts_S1x32_S1x32) broadcasts_S1x32_S5000x32))
          0x00000000#32 reduces_S5000x32_S5000 (.inl rfl) rfl) shapeCasts_S5000_S5000x1)
        (broadcastTo S5000x1 (shapeCast S1x1 v36 shapeCasts_S1x1_S1x1) broadcasts_S1x1_S5000x1) (ix2 p (0 : Fin 1))
      = (∑ k : Fin 32, H (ix2 p k) * v30 (ix2 (0 : Fin 1) k)) + v36 (ix2 (0 : Fin 1) (0 : Fin 1)) := by
  show shapeCast S5000x1 (multiReduction .add [1] S5000 (mulf H (broadcastTo S5000x32 (shapeCast S1x32 v30 shapeCasts_S1x32_S1x32) broadcasts_S1x32_S5000x32))
          0x00000000#32 reduces_S5000x32_S5000 (.inl rfl) rfl) shapeCasts_S5000_S5000x1 (ix2 p (0 : Fin 1))
      + broadcastTo S5000x1 (shapeCast S1x1 v36 shapeCasts_S1x1_S1x1) broadcasts_S1x1_S5000x1 (ix2 p (0 : Fin 1)) = _
  rw [row1_at]
  refine congrArg (· + v36 (ix2 (0 : Fin 1) (0 : Fin 1))) ?_
  refine (shapeCast_apply _ shapeCasts_S5000_S5000x1 (ix2 p (0 : Fin 1)) (ix1 p) ?_).trans ?_
  · rw [Shape.rowMajor_val_one, Shape.rowMajor_val_two]
    show p.val = p.val * 1 + 0
    omega
  refine (Ideal.multiReduction_add_single _ 0x00000000#32 reduces_S5000x32_S5000 (.inl rfl) rfl (ix1 p)).trans ?_
  refine Finset.sum_congr rfl fun (k : Fin 32) _ => ?_
  have e : reduces_S5000x32_S5000.lift (ix1 p) k = ix2 p k := funext fun a => Fin.ext (by
    match a with
    | ⟨0, _⟩ => rfl
    | ⟨1, _⟩ => rfl)
  rw [e]
  show H (ix2 p k) * broadcastTo S5000x32 (shapeCast S1x32 v30 shapeCasts_S1x32_S1x32) broadcasts_S1x32_S5000x32 (ix2 p k) = _
  rw [row32_at]

/-! ## The second body, whole -/

/-- What the second body stores at row `p` of its block: the row function of row `p` of the aggregated block `v0`,
    row `p` of the input block `v8`, and the parameter blocks. -/
theorem post_pay (v0 : Vec Ideal S5000x128 .f32) (v2 : Vec Ideal S1x128 .f32) (v8 : Vec Ideal S5000x128 .f32) (v11 : Vec Ideal S128x32 .f32)
    (v14 : Vec Ideal S1x32 .f32) (v21 : Vec Ideal S32x32 .f32) (v24 : Vec Ideal S1x32 .f32) (v30 : Vec Ideal S1x32 .f32) (v36 : Vec Ideal S1x1 .f32) (p : Fin 5000) :
    k1_pay1 (F := Ideal) (k1_pay2 (F := Ideal) v0 v2 v8 v11 v14 v21 v24 v30) v36 (ix2 p (0 : Fin 1))
      = rowOut (fun j => v0 (ix2 p j)) (fun j => v8 (ix2 p j)) (fun j => v2 (ix2 (0 : Fin 1) j)) (fun i j => v11 (ix2 i j)) (fun j => v14 (ix2 (0 : Fin 1) j))
          (fun i j => v21 (ix2 i j)) (fun j => v24 (ix2 (0 : Fin 1) j)) (fun k => v30 (ix2 (0 : Fin 1) k)) (v36 (ix2 (0 : Fin 1) (0 : Fin 1))) := by
  unfold k1_pay1 k1_pay2
  dsimp only
  refine (project_at _ v30 v36 p).trans ?_
  unfold rowOut
  refine congrArg (· + v36 (ix2 (0 : Fin 1) (0 : Fin 1))) ?_
  refine Finset.sum_congr rfl fun k _ => ?_
  refine congrArg (· * v30 (ix2 (0 : Fin 1) k)) ?_
  refine (dense2_at _ v21 v24 p k).trans ?_
  refine congrArg (fun h => dense h (fun i j => v21 (ix2 i j)) (fun j => v24 (ix2 (0 : Fin 1) j)) k) (funext fun i => ?_)
  refine (dense1_at _ v11 v14 p i).trans ?_
  refine congrArg (fun h => dense h (fun i j => v11 (ix2 i j)) (fun j => v14 (ix2 (0 : Fin 1) j)) i) (funext fun j => ?_)
  exact hidden0_at v0 v2 v8 p j

end Cert.KernelIdeal.Block

end
-- ==== Proof.KernelXw.lean ====
/-
  The first region's output array after its run: the whole product of the input features with the weights.

  The region walks ten blocks of 5000 rows. At block `t` the body stores, at (p, q), row `p` of the input block
  against column `q` of the weights; the input block at `t` is rows 5000·t … 5000·t + 4999 of the array, the weights'
  window is the whole matrix at every point, and the output block at `t` is written back to the same rows. So what
  point `t` writes back is block `t` of ONE function of the arrays the region finds, `xwArr`: entry (r, q) is row `r` of
  the features against column `q` of the weights. The ten blocks cover every row (row `r` lies in block `r / 5000`),
  hence the array ends holding `xwArr` everywhere.
-/
import proofs.«150884_j33243046871254_1_alg».proof.Proof.Gen.KernelIdeal.Frame
import proofs.«150884_j33243046871254_1_alg».proof.Proof.KernelBlock
import Idealize.ShloMosaic.Lib.Pipeline.Value

set_option maxRecDepth 16384

noncomputable section

namespace Cert.KernelIdeal.Xw

open Cert.KernelIdeal Cert.KernelIdeal.Gen Cert.KernelIdeal.Block Cert.RowMath
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product array: entry (r, q) is row `r` of `x` against column `q` of `w`. -/
def xwArr (x : S50000x128.Idx → EReal) (w : S128x128.Idx → EReal) : S50000x128.Idx → EReal :=
  fun i => dotRow (fun k => x (ix2 (⟨(i 0).val, (i 0).isLt⟩ : Fin 50000) k)) (fun k => w (ix2 k (⟨(i 1).val, (i 1).isLt⟩ : Fin 128)))

/-- The printed index maps over the grid: the input and output blocks move together down the rows, one block per
    point; the weights' window and every column index stay at block 0. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- WHAT POINT `t` WRITES BACK is block `t` of the product array of the arrays the region finds. -/
theorem flushed_eq (c : Dev nD) (t : Fin cfg0.N) :
    (dat0 V c).flushed 2 t = ((cfg0.win 2).blk t).view.read (Elt Ideal) (xwArr (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = xwArr (V c main_arg0) (V c main_arg2) (((cfg0.win 2).blk t).view.emb (ix2 p q))
  refine (xw_pay (iblk0 V c 0 t) (iblk0 V c 1 t) p q).trans ?_
  unfold xwArr
  have hl : ∀ k : Fin 128, iblk0 V c 0 t (ix2 p k)
      = V c main_arg0 (ix2 (⟨((((cfg0.win 2).blk t).view.emb (ix2 p q)) 0).val, ((((cfg0.win 2).blk t).view.emb (ix2 p q)) 0).isLt⟩ : Fin 50000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hr : ∀ k : Fin 128, iblk0 V c 1 t (ix2 k q)
      = V c main_arg2 (ix2 k (⟨((((cfg0.win 2).blk t).view.emb (ix2 p q)) 1).val, ((((cfg0.win 2).blk t).view.emb (ix2 p q)) 1).isLt⟩ : Fin 128)) := fun k => by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  simp only [hl, hr]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every row lies in some point's block: row `r` in block `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e5]
    show (i 0).val / 5000 * 5000 ≤ (i 0).val ∧ (i 0).val < (i 0).val / 5000 * 5000 + 5000
    omega
  | ⟨1, _⟩ =>
    show win0_2.index _ (1 : Fin 2) * 128 ≤ (i 1).val ∧ (i 1).val < win0_2.index _ (1 : Fin 2) * 128 + 128
    rw [e2]
    omega

/-- THE ARRAY after the first region's run: the product array of the arrays the region found. -/
theorem final (c : Dev nD) : (dat0 V c).arrAt 2 cfg0.N = xwArr (V c main_arg0) (V c main_arg2) :=
  (dat0 V c).arrAt_eq_of_cover 2 _ (fun t _ => flushed_eq V c t) (cover)

end Cert.KernelIdeal.Xw

end
-- ==== Proof.KernelPost.lean ====
/-
  The second region's output array after its run: one value per node, the row function of the node's rows.

  The region walks ten blocks of 5000 rows. At block `t` the body stores, at row `p`, `RowMath.rowOut` of row `p` of
  the aggregated block, row `p` of the input block and the parameter blocks; those two blocks are rows
  5000·t … 5000·t + 4999 of their arrays, every parameter's window is its whole array at every point, and the output
  block is written back to the same rows. So what point `t` writes back is block `t` of ONE function of the arrays the
  region finds, `outArr`; the ten blocks cover every row, hence the array ends holding `outArr` everywhere.
-/
import proofs.«150884_j33243046871254_1_alg».proof.Proof.Gen.KernelIdeal.Frame
import proofs.«150884_j33243046871254_1_alg».proof.Proof.KernelBlock
import Idealize.ShloMosaic.Lib.Pipeline.Value

set_option maxRecDepth 16384

noncomputable section

namespace Cert.KernelIdeal.Post

open Cert.KernelIdeal Cert.KernelIdeal.Gen Cert.KernelIdeal.Block Cert.RowMath
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output array: entry (r, 0) is the row function of row `r` of the aggregated features `a`, row `r` of the
    input `x`, and the parameters (each bias and the projection given as a one-row matrix). -/
def outArr (a x : S50000x128.Idx → EReal) (bg : S1x128.Idx → EReal) (w1 : S128x32.Idx → EReal) (b1 : S1x32.Idx → EReal)
    (w2 : S32x32.Idx → EReal) (b2 : S1x32.Idx → EReal) (w3 : S1x32.Idx → EReal) (b3 : S1x1.Idx → EReal) : S50000x1.Idx → EReal :=
  fun i => rowOut (fun j => a (ix2 (⟨(i 0).val, (i 0).isLt⟩ : Fin 50000) j)) (fun j => x (ix2 (⟨(i 0).val, (i 0).isLt⟩ : Fin 50000) j))
    (fun j => bg (ix2 (0 : Fin 1) j)) (fun i j => w1 (ix2 i j)) (fun j => b1 (ix2 (0 : Fin 1) j)) (fun i j => w2 (ix2 i j))
    (fun j => b2 (ix2 (0 : Fin 1) j)) (fun k => w3 (ix2 (0 : Fin 1) k)) (b3 (ix2 (0 : Fin 1) (0 : Fin 1)))

/-- The printed index maps over the grid: the two row-blocked inputs move with the output, one block per point; -/
theorem idx_rows : ∀ t : Fin cfg1.N, win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_9.index t (1 : Fin 2) = 0 ∧ win1_9.index t (0 : Fin 2) = t.val :=
  (by decide +kernel : ∀ t : Fin grid1.N, _)
/-- every parameter's window stays at block 0. -/
theorem idx_params : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

set_option maxHeartbeats 4000000 in
/-- WHAT POINT `t` WRITES BACK is block `t` of the output array of the arrays the region finds. -/
theorem flushed_eq (c : Dev nD) (t : Fin cfg1.N) :
    (dat1 V c).flushed 9 t = ((cfg1.win 9).blk t).view.read (Elt Ideal)
      (outArr (V c main_v43) (V c main_arg0) (V c main_v44) (V c main_arg4) (V c main_v45) (V c main_arg6) (V c main_v46) (V c main_v48) (V c main_v47)) := by
  show (cfg1.win 9).cut (grid1.coords t) ((dat1 V c).after 9 t) = _
  rw [after1_9]
  unfold out1_9
  rw [View.canon_unit_zero hz]
  simp only [View.ld_unit_zero (S := S5000x128) hz, View.ld_unit_zero (S := S1x128) hz, View.ld_unit_zero (S := S128x32) hz,
    View.ld_unit_zero (S := S1x32) hz, View.ld_unit_zero (S := S32x32) hz, View.ld_unit_zero (S := S1x1) hz]
  obtain ⟨r0, r1, r2, r3, r4, r5⟩ := idx_rows t
  obtain ⟨f20, f21, f30, f31, f40, f41, f50, f51, f60, f61, f70, f71, f80, f81⟩ := idx_params t
  funext j
  obtain ⟨p, q, rfl⟩ : ∃ (p : Fin 5000) (q : Fin 1), j = ix2 p q := ⟨j 0, j 1, eq_ix2 j⟩
  obtain rfl : q = 0 := Fin.ext (by have := q.isLt; omega)
  show k1_pay1 (F := Ideal) (k1_pay2 (F := Ideal) (iblk1 V c 0 t) (iblk1 V c 2 t) (iblk1 V c 1 t) (iblk1 V c 3 t) (iblk1 V c 4 t) (iblk1 V c 5 t) (iblk1 V c 6 t) (iblk1 V c 7 t)) (iblk1 V c 8 t) (ix2 p (0 : Fin 1))
    = outArr (V c main_v43) (V c main_arg0) (V c main_v44) (V c main_arg4) (V c main_v45) (V c main_arg6) (V c main_v46) (V c main_v48) (V c main_v47) (((cfg1.win 9).blk t).view.emb (ix2 p (0 : Fin 1)))
  refine (post_pay (iblk1 V c 0 t) (iblk1 V c 2 t) (iblk1 V c 1 t) (iblk1 V c 3 t) (iblk1 V c 4 t) (iblk1 V c 5 t) (iblk1 V c 6 t) (iblk1 V c 7 t) (iblk1 V c 8 t) p).trans ?_
  unfold outArr
  have h0 : ∀ k : Fin 128, iblk1 V c 0 t (ix2 p k)
      = V c main_v43 (ix2 (⟨((((cfg1.win 9).blk t).view.emb (ix2 p (0 : Fin 1))) 0).val, ((((cfg1.win 9).blk t).view.emb (ix2 p (0 : Fin 1))) 0).isLt⟩ : Fin 50000) k) := fun k => by
    show V c main_v43 (((cfg1.win 0).blk t).view.emb (ix2 p k)) = _
    refine congrArg (V c main_v43) (funext fun a => Fin.ext ?_)
    match a with
    | ⟨0, _⟩ => show win1_0.index t (0 : Fin 2) * 5000 + 1 * p.val = win1_9.index t (0 : Fin 2) * 5000 + 1 * p.val; omega
    | ⟨1, _⟩ => show win1_0.index t (1 : Fin 2) * 128 + 1 * k.val = k.val; omega
  have h1 : ∀ k : Fin 128, iblk1 V c 1 t (ix2 p k)
      = V c main_arg0 (ix2 (⟨((((cfg1.win 9).blk t).view.emb (ix2 p (0 : Fin 1))) 0).val, ((((cfg1.win 9).blk t).view.emb (ix2 p (0 : Fin 1))) 0).isLt⟩ : Fin 50000) k) := fun k => by
    show V c main_arg0 (((cfg1.win 1).blk t).view.emb (ix2 p k)) = _
    refine congrArg (V c main_arg0) (funext fun a => Fin.ext ?_)
    match a with
    | ⟨0, _⟩ => show win1_1.index t (0 : Fin 2) * 5000 + 1 * p.val = win1_9.index t (0 : Fin 2) * 5000 + 1 * p.val; omega
    | ⟨1, _⟩ => show win1_1.index t (1 : Fin 2) * 128 + 1 * k.val = k.val; omega
  have h2 : ∀ (a : Fin 1) (b : Fin 128), iblk1 V c 2 t (ix2 a b) = V c main_v44 (ix2 a b) := fun a b => by
    show V c main_v44 (((cfg1.win 2).blk t).view.emb (ix2 a b)) = _
    refine congrArg (V c main_v44) (funext fun ax => Fin.ext ?_)
    match ax with
    | ⟨0, _⟩ => show win1_2.index t (0 : Fin 2) * 1 + 1 * a.val = a.val; omega
    | ⟨1, _⟩ => show win1_2.index t (1 : Fin 2) * 128 + 1 * b.val = b.val; omega
  have h3 : ∀ (a : Fin 128) (b : Fin 32), iblk1 V c 3 t (ix2 a b) = V c main_arg4 (ix2 a b) := fun a b => by
    show V c main_arg4 (((cfg1.win 3).blk t).view.emb (ix2 a b)) = _
    refine congrArg (V c main_arg4) (funext fun ax => Fin.ext ?_)
    match ax with
    | ⟨0, _⟩ => show win1_3.index t (0 : Fin 2) * 128 + 1 * a.val = a.val; omega
    | ⟨1, _⟩ => show win1_3.index t (1 : Fin 2) * 32 + 1 * b.val = b.val; omega
  have h4 : ∀ (a : Fin 1) (b : Fin 32), iblk1 V c 4 t (ix2 a b) = V c main_v45 (ix2 a b) := fun a b => by
    show V c main_v45 (((cfg1.win 4).blk t).view.emb (ix2 a b)) = _
    refine congrArg (V c main_v45) (funext fun ax => Fin.ext ?_)
    match ax with
    | ⟨0, _⟩ => show win1_4.index t (0 : Fin 2) * 1 + 1 * a.val = a.val; omega
    | ⟨1, _⟩ => show win1_4.index t (1 : Fin 2) * 32 + 1 * b.val = b.val; omega
  have h5 : ∀ (a : Fin 32) (b : Fin 32), iblk1 V c 5 t (ix2 a b) = V c main_arg6 (ix2 a b) := fun a b => by
    show V c main_arg6 (((cfg1.win 5).blk t).view.emb (ix2 a b)) = _
    refine congrArg (V c main_arg6) (funext fun ax => Fin.ext ?_)
    match ax with
    | ⟨0, _⟩ => show win1_5.index t (0 : Fin 2) * 32 + 1 * a.val = a.val; omega
    | ⟨1, _⟩ => show win1_5.index t (1 : Fin 2) * 32 + 1 * b.val = b.val; omega
  have h6 : ∀ (a : Fin 1) (b : Fin 32), iblk1 V c 6 t (ix2 a b) = V c main_v46 (ix2 a b) := fun a b => by
    show V c main_v46 (((cfg1.win 6).blk t).view.emb (ix2 a b)) = _
    refine congrArg (V c main_v46) (funext fun ax => Fin.ext ?_)
    match ax with
    | ⟨0, _⟩ => show win1_6.index t (0 : Fin 2) * 1 + 1 * a.val = a.val; omega
    | ⟨1, _⟩ => show win1_6.index t (1 : Fin 2) * 32 + 1 * b.val = b.val; omega
  have h7 : ∀ (a : Fin 1) (b : Fin 32), iblk1 V c 7 t (ix2 a b) = V c main_v48 (ix2 a b) := fun a b => by
    show V c main_v48 (((cfg1.win 7).blk t).view.emb (ix2 a b)) = _
    refine congrArg (V c main_v48) (funext fun ax => Fin.ext ?_)
    match ax with
    | ⟨0, _⟩ => show win1_7.index t (0 : Fin 2) * 1 + 1 * a.val = a.val; omega
    | ⟨1, _⟩ => show win1_7.index t (1 : Fin 2) * 32 + 1 * b.val = b.val; omega
  have h8 : ∀ (a : Fin 1) (b : Fin 1), iblk1 V c 8 t (ix2 a b) = V c main_v47 (ix2 a b) := fun a b => by
    show V c main_v47 (((cfg1.win 8).blk t).view.emb (ix2 a b)) = _
    refine congrArg (V c main_v47) (funext fun ax => Fin.ext ?_)
    match ax with
    | ⟨0, _⟩ => show win1_8.index t (0 : Fin 2) * 1 + 1 * a.val = a.val; omega
    | ⟨1, _⟩ => show win1_8.index t (1 : Fin 2) * 1 + 1 * b.val = b.val; omega
  simp only [h0, h1, h2, h3, h4, h5, h6, h7, h8]

/-- An index of the array is in point `t`'s block iff each coordinate is in the block's range on its axis. -/
theorem mem_blk (t : Fin cfg1.N) (i : S50000x1.Idx) :
    i ∈ ((cfg1.win 9).blk t).view.set ↔ ∀ a : Fin 2, win1_9.index t a * S5000x1.size a ≤ (i a).val ∧ (i a).val < win1_9.index t a * S5000x1.size a + S5000x1.size a := by
  show i ∈ ((View.whole main_v49).slice (win1_9.rect t)).set ↔ _
  rw [View.set_slice_whole, Rect.mem_set_unit]
  exact Iff.rfl

/-- Every row lies in some point's block: row `r` in block `r / 5000`. -/
theorem cover (i : S50000x1.Idx) : ∃ t : Fin cfg1.N, (cfg1.win 9).flush t = true ∧ i ∈ ((cfg1.win 9).blk t).view.set := by
  have hi0 : (i 0).val < 50000 := (i 0).isLt
  have hi1 : (i 1).val < 1 := (i 1).isLt
  have hN : cfg1.N = 10 := N_1
  refine ⟨⟨(i 0).val / 5000, by rw [hN]; omega⟩, flush1_9 _, ?_⟩
  rw [mem_blk]
  obtain ⟨r0, r1, r2, r3, r4, r5⟩ := idx_rows ⟨(i 0).val / 5000, by rw [hN]; omega⟩
  intro a
  match a with
  | ⟨0, _⟩ =>
    show win1_9.index _ (0 : Fin 2) * 5000 ≤ (i 0).val ∧ (i 0).val < win1_9.index _ (0 : Fin 2) * 5000 + 5000
    rw [r5]
    show (i 0).val / 5000 * 5000 ≤ (i 0).val ∧ (i 0).val < (i 0).val / 5000 * 5000 + 5000
    omega
  | ⟨1, _⟩ =>
    show win1_9.index _ (1 : Fin 2) * 1 ≤ (i 1).val ∧ (i 1).val < win1_9.index _ (1 : Fin 2) * 1 + 1
    rw [r4]
    omega

/-- THE ARRAY after the second region's run: the output array of the arrays the region found. -/
theorem final (c : Dev nD) : (dat1 V c).arrAt 9 cfg1.N
    = outArr (V c main_v43) (V c main_arg0) (V c main_v44) (V c main_arg4) (V c main_v45) (V c main_arg6) (V c main_v46) (V c main_v48) (V c main_v47) :=
  (dat1 V c).arrAt_eq_of_cover 9 _ (fun t _ => flushed_eq V c t) (cover)

end Cert.KernelIdeal.Post

end
-- ==== Proof.RefRows.lean ====
/-
  The reference, read one node at a time, at the ideal values.

  After the graph aggregation (the stage `val_main_v43`, a function of the transformed features and the edge list
  that is never opened here) the reference adds the bias, applies relu, adds the input, and runs three dense layers.
  Every one of those operations acts row by row, so the result at node `r` is `RowMath.rowOut` of row `r` of the
  aggregated features, row `r` of the input, and the parameters. The products are the host's `dot_general`, sums
  over the contracted axis; the biases are broadcasts of one row; relu is the maximum with the zero constant.
-/
import proofs.«150884_j33243046871254_1_alg».proof.Proof.RefReadGen
import proofs.«150884_j33243046871254_1_alg».proof.Proof.RowMath

noncomputable section

namespace Cert.ReferenceIdeal.Rows

open Cert.ReferenceIdeal Cert.ReferenceIdeal.ReadP Idealize.ShloMosaic Idealize.ShloMosaic.ValueIdx Cert.RowMath

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal)) (x4 : (⟨S128x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal)) (x8 : (⟨S32x1, .f32⟩ : BufTy).Contents (Elt Ideal)) (x9 : (⟨S1, .f32⟩ : BufTy).Contents (Elt Ideal))

/-- Row `r` of the aggregated features. -/
abbrev aggRow (r : Fin 50000) : Fin 128 → EReal := fun j => val_main_v43 (F := Ideal) x0 x1 x2 (ix2 r j)

/-- Bias, relu and residual at node `r`, feature `j`. -/
theorem hidden0_at (r : Fin 50000) (j : Fin 128) :
    val_main_v48 (F := Ideal) x0 x1 x2 x3 (ix2 r j)
      = hidden0 (aggRow x0 x1 x2 r) (fun j => x0 (ix2 r j)) (fun j => x3 (ix1 j)) j := by
  rw [val_main_v48_apply, val_main_v47_apply, val_main_v46_apply, val_main_v45_apply, val_main_v44_apply,
    val_main_call1_v0_apply, val_main_call1_cst_apply]
  have e : idx_main_v44 (idx_main_v45 (ix2 r j)) = ix1 j := funext fun a => Fin.ext (by
    match a with
    | ⟨0, _⟩ => rfl)
  rw [e]
  show max (val_main_v43 (F := Ideal) x0 x1 x2 (ix2 r j) + x3 (ix1 j)) (Ideal.ofBits .f32 0x00000000#32) + x0 (ix2 r j) = _
  rw [Ideal.ofBits_zero_f32]
  rfl

/-- The first dense layer at node `r`, unit `j`. -/
theorem dense1_at (r : Fin 50000) (j : Fin 32) :
    val_main_v53 (F := Ideal) x0 x1 x2 x3 x4 x5 (ix2 r j)
      = dense (hidden0 (aggRow x0 x1 x2 r) (fun j => x0 (ix2 r j)) (fun j => x3 (ix1 j))) (fun i j => x4 (ix2 i j)) (fun j => x5 (ix1 j)) j := by
  rw [val_main_v53_apply, val_main_v52_apply, val_main_v49_apply, val_main_v51_apply, val_main_v50_apply,
    val_main_call2_v0_apply, val_main_call2_cst_apply]
  have e : idx_main_v50 (idx_main_v51 (ix2 r j)) = ix1 j := funext fun a => Fin.ext (by
    match a with
    | ⟨0, _⟩ => rfl)
  have el : ∀ k : Fin 128, lidx_main_v49 (ix2 r j) k = ix2 r k := fun k => funext fun a => Fin.ext (by
    match a with
    | ⟨0, _⟩ => rfl
    | ⟨1, _⟩ => rfl)
  have er : ∀ k : Fin 128, ridx_main_v49 (ix2 r j) k = ix2 k j := fun k => funext fun a => Fin.ext (by
    match a with
    | ⟨0, _⟩ => rfl
    | ⟨1, _⟩ => rfl)
  rw [e]
  simp only [el, er, hidden0_at]
  show max ((∑ k : Fin 128, _ * x4 (ix2 k j)) + x5 (ix1 j)) (Ideal.ofBits .f32 0x00000000#32) = _
  rw [Ideal.ofBits_zero_f32]
  rfl

/-- The second dense layer at node `r`, unit `j`. -/
theorem dense2_at (r : Fin 50000) (j : Fin 32) :
    val_main_v58 (F := Ideal) x0 x1 x2 x3 x4 x5 x6 x7 (ix2 r j)
      = dense (dense (hidden0 (aggRow x0 x1 x2 r) (fun j => x0 (ix2 r j)) (fun j => x3 (ix1 j))) (fun i j => x4 (ix2 i j)) (fun j => x5 (ix1 j)))
          (fun i j => x6 (ix2 i j)) (fun j => x7 (ix1 j)) j := by
  rw [val_main_v58_apply, val_main_v57_apply, val_main_v54_apply, val_main_v56_apply, val_main_v55_apply,
    val_main_call3_v0_apply, val_main_call3_cst_apply]
  have e : idx_main_v55 (idx_main_v56 (ix2 r j)) = ix1 j := funext fun a => Fin.ext (by
    match a with
    | ⟨0, _⟩ => rfl)
  have el : ∀ k : Fin 32, lidx_main_v54 (ix2 r j) k = ix2 r k := fun k => funext fun a => Fin.ext (by
    match a with
    | ⟨0, _⟩ => rfl
    | ⟨1, _⟩ => rfl)
  have er : ∀ k : Fin 32, ridx_main_v54 (ix2 r j) k = ix2 k j := fun k => funext fun a => Fin.ext (by
    match a with
    | ⟨0, _⟩ => rfl
    | ⟨1, _⟩ => rfl)
  rw [e]
  simp only [el, er, dense1_at]
  show max ((∑ k : Fin 32, _ * x6 (ix2 k j)) + x7 (ix1 j)) (Ideal.ofBits .f32 0x00000000#32) = _
  rw [Ideal.ofBits_zero_f32]
  rfl

/-- THE REFERENCE AT NODE `r`: the row function of the node's aggregated row, its input row and the parameters. -/
theorem out_at (r : Fin 50000) :
    val_main_v62 (F := Ideal) x0 x1 x2 x3 x4 x5 x6 x7 x8 x9 (ix2 r (0 : Fin 1))
      = rowOut (aggRow x0 x1 x2 r) (fun j => x0 (ix2 r j)) (fun j => x3 (ix1 j)) (fun i j => x4 (ix2 i j)) (fun j => x5 (ix1 j))
          (fun i j => x6 (ix2 i j)) (fun j => x7 (ix1 j)) (fun k => x8 (ix2 k (0 : Fin 1))) (x9 (ix1 (0 : Fin 1))) := by
  rw [val_main_v62_apply, val_main_v59_apply, val_main_v61_apply, val_main_v60_apply]
  have e : idx_main_v60 (idx_main_v61 (ix2 r (0 : Fin 1))) = ix1 (0 : Fin 1) := funext fun a => Fin.ext (by
    match a with
    | ⟨0, _⟩ => rfl)
  have el : ∀ k : Fin 32, lidx_main_v59 (ix2 r (0 : Fin 1)) k = ix2 r k := fun k => funext fun a => Fin.ext (by
    match a with
    | ⟨0, _⟩ => rfl
    | ⟨1, _⟩ => rfl)
  have er : ∀ k : Fin 32, ridx_main_v59 (ix2 r (0 : Fin 1)) k = ix2 k (0 : Fin 1) := fun k => funext fun a => Fin.ext (by
    match a with
    | ⟨0, _⟩ => rfl
    | ⟨1, _⟩ => rfl)
  rw [e]
  simp only [el, er, dense2_at]
  rfl

/-! ## The graph aggregation as ONE function of the transformed features -/

section Aggregation

variable {F : FTy → Type} [FloatOps F]

/-- Everything between the feature transform and the bias: the degree count, the symmetric normalisation, the gather
    of source rows, their scaling and the scatter-add into target rows, as a function of the transformed features
    `xw` and the edge list `e`. It is never opened: both programs apply it, to equal arguments. -/
def aggOf (xw : (⟨S50000x128, .f32⟩ : BufTy).Contents (Elt F)) (e : (⟨S2x600000, .i32⟩ : BufTy).Contents (Elt F)) :
    (⟨S50000x128, .f32⟩ : BufTy).Contents (Elt F) :=
  Host.scatterAdd scatter_S50000x128_S650000x1_S650000x128_1_0_0_1 (val_main_v41 (F := F)) (val_main_v42 (F := F) e)
    (mulf (Host.gather gather_S50000x128_S650000x1_S650000x128_1_0_n_n_0_1_1128 xw (val_main_v36 (F := F) e)) (val_main_v39 (F := F) e))

/-- The reference's aggregated features are that function of its transformed features. -/
theorem agg_eq (a0 : (⟨S50000x128, .f32⟩ : BufTy).Contents (Elt F)) (e : (⟨S2x600000, .i32⟩ : BufTy).Contents (Elt F))
    (a2 : (⟨S128x128, .f32⟩ : BufTy).Contents (Elt F)) :
    val_main_v43 (F := F) a0 e a2 = aggOf (val_main_v0 (F := F) a0 a2) e := rfl

end Aggregation

end Cert.ReferenceIdeal.Rows

end
-- ==== Proof.KernelHost.lean ====
/-
  What the second region finds in its operand arrays: the host operations between the two regions, read back.

  Between the regions @main runs the graph aggregation on the first region's output and reshapes five parameter
  vectors to one-row (or one-entry) matrices. At the second region's entry:
  the aggregated array is the aggregation function `aggOf` of the first region's output array and the edge list
  (the same operations, in the same order, as the reference's: the two printed chains agree term by term);
  the input and the two weight matrices are as launched (no operation writes them);
  each reshaped parameter is the cast of its launched vector.
-/
import proofs.«150884_j33243046871254_1_alg».proof.Proof.Gen.KernelIdeal.Frame
import proofs.«150884_j33243046871254_1_alg».proof.Proof.RefRows
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

set_option maxHeartbeats 4000000 in
/-- The aggregated array at the second region's entry. -/
theorem agg_entry (c : Dev nD) :
    W4 m ρ c (Proc.devRef .tc main_v43)
      = Cert.ReferenceIdeal.Rows.aggOf (F := F) (W1 m ρ c (Proc.devRef .tc main_v0)) (W1 m ρ c (Proc.devRef .tc main_arg1)) := by
  dsimp only [W4, W3, W2, hostOps1, hostOps1_1, hostOps1_2]
  after_results_simp
  rfl

/-! ## The operands no operation writes, and the reshaped parameters -/
set_option maxHeartbeats 4000000 in
/-- `main_arg0` is as launched at the second region's entry: no operation between the regions writes it. -/
theorem main_arg0_entry (c : Dev nD) : W4 m ρ c (Proc.devRef .tc main_arg0) = W1 m ρ c (Proc.devRef .tc main_arg0) := by
  dsimp only [W4, W3, W2, hostOps1, hostOps1_1, hostOps1_2]
  after_results_simp
set_option maxHeartbeats 4000000 in
/-- `main_arg4` is as launched at the second region's entry: no operation between the regions writes it. -/
theorem main_arg4_entry (c : Dev nD) : W4 m ρ c (Proc.devRef .tc main_arg4) = W1 m ρ c (Proc.devRef .tc main_arg4) := by
  dsimp only [W4, W3, W2, hostOps1, hostOps1_1, hostOps1_2]
  after_results_simp
set_option maxHeartbeats 4000000 in
/-- `main_arg6` is as launched at the second region's entry: no operation between the regions writes it. -/
theorem main_arg6_entry (c : Dev nD) : W4 m ρ c (Proc.devRef .tc main_arg6) = W1 m ρ c (Proc.devRef .tc main_arg6) := by
  dsimp only [W4, W3, W2, hostOps1, hostOps1_1, hostOps1_2]
  after_results_simp
set_option maxHeartbeats 4000000 in
/-- `main_v44` at the second region's entry is the cast of `main_arg3` as the first region left it. -/
theorem main_v44_entry (c : Dev nD) :
    W4 m ρ c (Proc.devRef .tc main_v44) = shapeCast _ (W1 m ρ c (Proc.devRef .tc main_arg3)) shapeCasts_S128_S1x128 := by
  dsimp only [W4, W3, W2, hostOps1, hostOps1_1, hostOps1_2]
  after_results_simp
  rfl
set_option maxHeartbeats 4000000 in
/-- `main_v45` at the second region's entry is the cast of `main_arg5` as the first region left it. -/
theorem main_v45_entry (c : Dev nD) :
    W4 m ρ c (Proc.devRef .tc main_v45) = shapeCast _ (W1 m ρ c (Proc.devRef .tc main_arg5)) shapeCasts_S32_S1x32 := by
  dsimp only [W4, W3, W2, hostOps1, hostOps1_1, hostOps1_2]
  after_results_simp
  rfl
set_option maxHeartbeats 4000000 in
/-- `main_v46` at the second region's entry is the cast of `main_arg7` as the first region left it. -/
theorem main_v46_entry (c : Dev nD) :
    W4 m ρ c (Proc.devRef .tc main_v46) = shapeCast _ (W1 m ρ c (Proc.devRef .tc main_arg7)) shapeCasts_S32_S1x32 := by
  dsimp only [W4, W3, W2, hostOps1, hostOps1_1, hostOps1_2]
  after_results_simp
  rfl
set_option maxHeartbeats 4000000 in
/-- `main_v47` at the second region's entry is the cast of `main_arg9` as the first region left it. -/
theorem main_v47_entry (c : Dev nD) :
    W4 m ρ c (Proc.devRef .tc main_v47) = shapeCast _ (W1 m ρ c (Proc.devRef .tc main_arg9)) shapeCasts_S1_S1x1 := by
  dsimp only [W4, W3, W2, hostOps1, hostOps1_1, hostOps1_2]
  after_results_simp
  rfl
set_option maxHeartbeats 4000000 in
/-- `main_v48` at the second region's entry is the cast of `main_arg8` as the first region left it. -/
theorem main_v48_entry (c : Dev nD) :
    W4 m ρ c (Proc.devRef .tc main_v48) = shapeCast _ (W1 m ρ c (Proc.devRef .tc main_arg8)) shapeCasts_S32x1_S1x32 := by
  dsimp only [W4, W3, W2, hostOps1, hostOps1_1, hostOps1_2]
  after_results_simp
  rfl

/-! ## What the first region leaves -/

/-- An argument no window of the first region writes is as launched after it. -/
theorem W1_arg (c : Dev nD) (b : Ref sig .tc) (hb : ∀ w, Pipeline.arrRef spec0 w ≠ b) :
    W1 m ρ c (Proc.devRef .tc b) = m ((c : Thread nD τ).loc b) :=
  W1_of_ne m ρ c b hb

/-- The first region's input windows leave their arrays as launched. -/
theorem W1_main_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

end Cert.KernelIdeal.HostSide

end
-- ==== Proof.KernelValue.lean ====
/-
  The kernel program's result, as a function of its arguments: the reference's own result function.

  The pieces: the first region leaves the product array of the input and the weights, which is the reference's
  transformed-features stage (both are, entry by entry, a row against a column); the host operations between the
  regions apply the same aggregation function to it and to the same edge list, and hand the second region the input,
  the weight matrices and the reshaped bias and projection vectors; the second region leaves, at every node, the row
  function of that node's rows — which is what the reference computes at that node. A bias reshaped [n] → [1, n] reads,
  at (0, j), the vector at j; the projection reshaped [32, 1] → [1, 32] reads, at (0, k), the column at (k, 0).
-/
import proofs.«150884_j33243046871254_1_alg».proof.Proof.KernelRun
import proofs.«150884_j33243046871254_1_alg».proof.Proof.KernelXw
import proofs.«150884_j33243046871254_1_alg».proof.Proof.KernelPost
import proofs.«150884_j33243046871254_1_alg».proof.Proof.KernelHost
import proofs.«150884_j33243046871254_1_alg».proof.Proof.RefRows
import Idealize.ShloMosaic.Lib.ValueLayout

set_option maxRecDepth 16384

noncomputable section

namespace Cert.KernelIdeal.Whole

open Cert.KernelIdeal Cert.KernelIdeal.Gen Cert.RowMath
open Cert.ReferenceIdeal.ReadP (val_main_v62 val_main_v43 val_main_v0 val_main_v0_apply lidx_main_v0 ridx_main_v0)
open Idealize.ShloMosaic Idealize.ShloMosaic.TcCoe Idealize.ShloMosaic.ValueIdx Idealize.SL.Sem
open Idealize.ShloMosaic.Pipeline (Dat Cfg Window)

/-! ## The product array is the reference's transformed features -/

theorem xwArr_eq (x : S50000x128.Idx → EReal) (w : S128x128.Idx → EReal) :
    Xw.xwArr x w = val_main_v0 (F := Ideal) x w := by
  funext i
  obtain ⟨r, q, rfl⟩ : ∃ (r : Fin 50000) (q : Fin 128), i = ix2 r q := ⟨i 0, i 1, eq_ix2 i⟩
  rw [val_main_v0_apply]
  unfold Xw.xwArr dotRow
  refine Finset.sum_congr rfl fun k _ => ?_
  have el : lidx_main_v0 (ix2 r q) k = ix2 r k := funext fun a => Fin.ext (by
    match a with
    | ⟨0, _⟩ => rfl
    | ⟨1, _⟩ => rfl)
  have er : ridx_main_v0 (ix2 r q) k = ix2 k q := funext fun a => Fin.ext (by
    match a with
    | ⟨0, _⟩ => rfl
    | ⟨1, _⟩ => rfl)
  rw [el, er]

/-! ## The reshaped parameters, read at an entry -/

/-- A column [n, 1] cast to a row [1, n] reads, at (0, k), the column at (k, 0). -/
theorem col_as_row {n : Nat} (x : (⟨2, ![n, 1]⟩ : Shape).Idx → EReal) (h : (⟨2, ![n, 1]⟩ : Shape).ShapeCasts ⟨2, ![1, n]⟩) (k : Fin n) :
    shapeCast ⟨2, ![1, n]⟩ x h (ix2 (0 : Fin 1) k) = x (ix2 k (0 : Fin 1)) :=
  shapeCast_apply x h _ _ (by
    rw [Shape.rowMajor_val_two, Shape.rowMajor_val_two]
    show k.val * 1 + 0 = 0 * n + k.val
    omega)

/-! ## The output array of the reshaped parameters is the reference's result -/

theorem outArr_eq (x0 : S50000x128.Idx → EReal) (x1 : S2x600000.Idx → BitVec 32) (x2 : S128x128.Idx → EReal) (x3 : S128.Idx → EReal)
    (x4 : S128x32.Idx → EReal) (x5 : S32.Idx → EReal) (x6 : S32x32.Idx → EReal) (x7 : S32.Idx → EReal) (x8 : S32x1.Idx → EReal) (x9 : S1.Idx → EReal) :
    Post.outArr (val_main_v43 (F := Ideal) x0 x1 x2) x0 (shapeCast S1x128 x3 shapeCasts_S128_S1x128) x4 (shapeCast S1x32 x5 shapeCasts_S32_S1x32) x6
        (shapeCast S1x32 x7 shapeCasts_S32_S1x32) (shapeCast S1x32 x8 shapeCasts_S32x1_S1x32) (shapeCast S1x1 x9 shapeCasts_S1_S1x1)
      = val_main_v62 (F := Ideal) x0 x1 x2 x3 x4 x5 x6 x7 x8 x9 := by
  funext i
  obtain ⟨r, q, rfl⟩ : ∃ (r : Fin 50000) (q : Fin 1), i = ix2 r q := ⟨i 0, i 1, eq_ix2 i⟩
  obtain rfl : q = 0 := Fin.ext (by have := q.isLt; omega)
  rw [Cert.ReferenceIdeal.Rows.out_at]
  unfold Post.outArr
  have e3 : ∀ j : Fin 128, shapeCast S1x128 x3 shapeCasts_S128_S1x128 (ix2 (0 : Fin 1) j) = x3 (ix1 j) := fun j => shapeCast_a_1a_apply x3 _ 0 j
  have e5 : ∀ j : Fin 32, shapeCast S1x32 x5 shapeCasts_S32_S1x32 (ix2 (0 : Fin 1) j) = x5 (ix1 j) := fun j => shapeCast_a_1a_apply x5 _ 0 j
  have e7 : ∀ j : Fin 32, shapeCast S1x32 x7 shapeCasts_S32_S1x32 (ix2 (0 : Fin 1) j) = x7 (ix1 j) := fun j => shapeCast_a_1a_apply x7 _ 0 j
  have e8 : ∀ k : Fin 32, shapeCast S1x32 x8 shapeCasts_S32x1_S1x32 (ix2 (0 : Fin 1) k) = x8 (ix2 k (0 : Fin 1)) := fun k => col_as_row x8 _ k
  have e9 : shapeCast S1x1 x9 shapeCasts_S1_S1x1 (ix2 (0 : Fin 1) (0 : Fin 1)) = x9 (ix1 (0 : Fin 1)) := shapeCast_a_1a_apply x9 _ 0 0
  simp only [e3, e5, e7, e8, e9]

/-! ## The whole program -/

variable (m : (ℓ : Loc nD τ sig) → Buf (Elt Ideal) ℓ) (ρ : Dev nD → PrngReg)

/-- After the first region the output array holds the reference's transformed features of the launched arguments. -/
theorem xw_after (c : Dev nD) :
    W1 m ρ c (Proc.devRef .tc main_v0) = val_main_v0 (F := Ideal) (m ((c : Thread nD τ).loc main_arg0)) (m ((c : Thread nD τ).loc main_arg2)) :=
  (W1_arr m ρ c 2).trans ((Xw.final (V0 m ρ) c).trans (xwArr_eq _ _))

/-- THE RESULT BUFFER after the run is the reference's result function of the launched arguments. -/
theorem result_eq (c : Dev nD) :
    W5 m ρ c (Proc.devRef .tc main_v49) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W5_arr m ρ c 9).trans ?_
  rw [Post.final (V4 m ρ) c]
  show Post.outArr (W4 m ρ c (Proc.devRef .tc main_v43)) (W4 m ρ c (Proc.devRef .tc main_arg0)) (W4 m ρ c (Proc.devRef .tc main_v44))
    (W4 m ρ c (Proc.devRef .tc main_arg4)) (W4 m ρ c (Proc.devRef .tc main_v45)) (W4 m ρ c (Proc.devRef .tc main_arg6))
    (W4 m ρ c (Proc.devRef .tc main_v46)) (W4 m ρ c (Proc.devRef .tc main_v48)) (W4 m ρ c (Proc.devRef .tc main_v47)) = _
  rw [HostSide.agg_entry, HostSide.main_arg0_entry, HostSide.main_arg4_entry, HostSide.main_arg6_entry, HostSide.main_v44_entry,
    HostSide.main_v45_entry, HostSide.main_v46_entry, HostSide.main_v47_entry, HostSide.main_v48_entry,
    xw_after, HostSide.W1_main_arg0,
    HostSide.W1_arg m ρ c main_arg1 (by decide), HostSide.W1_arg m ρ c main_arg3 (by decide), HostSide.W1_arg m ρ c main_arg4 (by decide),
    HostSide.W1_arg m ρ c main_arg5 (by decide), HostSide.W1_arg m ρ c main_arg6 (by decide), HostSide.W1_arg m ρ c main_arg7 (by decide),
    HostSide.W1_arg m ρ c main_arg8 (by decide), HostSide.W1_arg m ρ c main_arg9 (by decide),
    ← Cert.ReferenceIdeal.Rows.agg_eq]
  exact outArr_eq _ _ _ _ _ _ _ _ _ _

end Cert.KernelIdeal.Whole

end
-- ==== Proof.lean ====
/-
  A graph-convolution layer with a residual connection followed by a three-layer perceptron, as two tiled kernels
  around a host-side aggregation, against the same network written with whole-array operations.

  Both programs compute, for every node r,
      out r = rowOut (A r) (x r) b_gcn w1 b1 w2 b2 w3 b3            (RowMath.lean)
  where A = aggregate (x · W_gcn, edges) is the normalised gather / scatter-add over the graph. They differ in how the
  products are taken (blocks of 5000 rows through the matrix unit in a narrower float format, which is the identity
  on extended reals, against whole-array products), in how the last projection is taken (a lane sum of products with
  the projection's row against a product with its column: the same sum of 32 terms), and in the parameters' layout
  (reshapes against broadcasts). The aggregation is the same chain of host operations in both programs, applied to
  equal transformed features and the same edge list, so it is carried as one unopened function. No law used needs
  finite values: sums over finite index sets in the extended reals are sums in a commutative monoid.

  The frames of the two kernel programs are the generated ones; the reference's frame is its run with the result dropped.
-/
import proofs.«150884_j33243046871254_1_alg».proof.Defs
import proofs.«150884_j33243046871254_1_alg».proof.Proof.Gen.Kernel
import proofs.«150884_j33243046871254_1_alg».proof.Proof.Gen.Kernel.Frame
import proofs.«150884_j33243046871254_1_alg».proof.Proof.Gen.KernelIdeal
import proofs.«150884_j33243046871254_1_alg».proof.Proof.Gen.KernelIdeal.Frame
import proofs.«150884_j33243046871254_1_alg».proof.Proof.Gen.ReferenceIdeal
import proofs.«150884_j33243046871254_1_alg».proof.Proof.Gen.Pre_finite_inputs
import proofs.«150884_j33243046871254_1_alg».proof.Proof.RefRun
import proofs.«150884_j33243046871254_1_alg».proof.Proof.RefReadGen
import proofs.«150884_j33243046871254_1_alg».proof.Proof.KernelRun
import proofs.«150884_j33243046871254_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The kernel program ends with its result buffer at the reference's result function of the launched arguments
    (`Whole.result_eq`); the reference ends with its result at the same function of its own arguments, which agree. -/
theorem algebraic : Cert.algebraic_KernelIdeal_ReferenceIdeal := by
  intro m ρ m' ρ' _ hagree
  refine ⟨fun c => Cert.KernelIdeal.Gen.W5 m ρ c (Proc.devRef .tc Cert.KernelIdeal.main_v49), Cert.KernelIdeal.Named.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v62_eq, h0, h1, h2, h3, h4, h5, h6, h7, h8, h9]
  exact (Cert.KernelIdeal.Whole.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
